-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S512x256 : Shape := ⟨2, ![512, 256]⟩
abbrev S256x256 : Shape := ⟨2, ![256, 256]⟩
abbrev S1 : Shape := ⟨1, ![1]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256x256 : S_.BroadcastsInDim S256x256 (![] : Fin 0 → Fin S256x256.rank)
  reducesTo_S256x256_S_d0_1 : S256x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_arg5 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S65536x256 .f32) (main_arg1 : FVec F S512x256 .f32) (main_arg2 : FVec F S256x256 .f32) (main_arg3 : FVec F S1 .f32) (main_arg4 : FVec F S1 .f32) (main_arg5 : FVec F S1 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_v13 main_v16
-- ==== Kernel.lean ====
abbrev S65536x256 : Shape := ⟨2, ![65536, 256]⟩
abbrev S512x256 : Shape := ⟨2, ![512, 256]⟩
abbrev S256x256 : Shape := ⟨2, ![256, 256]⟩
abbrev S1 : Shape := ⟨1, ![1]⟩
abbrev S_ : Shape := ⟨0, ![]⟩
abbrev S256x512 : Shape := ⟨2, ![256, 512]⟩
abbrev S256 : Shape := ⟨1, ![256]⟩
abbrev S1x256 : Shape := ⟨2, ![1, 256]⟩
abbrev S2048x256 : Shape := ⟨2, ![2048, 256]⟩
abbrev S2048x512 : Shape := ⟨2, ![2048, 512]⟩

abbrev nBuf : Space → Nat
  | .hbm => 38
  | .vmem => 8
  | .smem => 0
  | _ => 0

abbrev bufTy : (tb : Table) → Fin (tcTables nBuf tb) → BufTy
  | .hbm, ⟨0, _⟩ => ⟨S65536x256, .f32⟩
  | .hbm, ⟨1, _⟩ => ⟨S512x256, .f32⟩
  | .hbm, ⟨2, _⟩ => ⟨S256x256, .f32⟩
  | .hbm, ⟨3, _⟩ => ⟨S1, .f32⟩
  | .hbm, ⟨4, _⟩ => ⟨S1, .f32⟩
  | .hbm, ⟨5, _⟩ => ⟨S1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256, .f32⟩
  | .hbm, ⟨17, _⟩ => ⟨S1x256, .f32⟩
  | .hbm, ⟨18, _⟩ => ⟨S512x256, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S512x256, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S512x256, .bf16⟩
  | .hbm, ⟨31, _⟩ => ⟨S512x256, .bf16⟩
  | .hbm, ⟨32, _⟩ => ⟨S_, .f32⟩
  | .hbm, ⟨33, _⟩ => ⟨S1x256, .f32⟩
  | .hbm, ⟨34, _⟩ => ⟨S1x256, .f32⟩
  | .hbm, ⟨35, _⟩ => ⟨S512x256, .bf16⟩
  | .hbm, ⟨36, _⟩ => ⟨S256x512, .bf16⟩
  | .hbm, ⟨37, _⟩ => ⟨S65536x256, .f32⟩
  | .local _ .vmem, ⟨0, _⟩ => ⟨S2048x256, .f32⟩
  | .local _ .vmem, ⟨1, _⟩ => ⟨S2048x256, .f32⟩
  | .local _ .vmem, ⟨2, _⟩ => ⟨S256x512, .bf16⟩
  | .local _ .vmem, ⟨3, _⟩ => ⟨S512x256, .bf16⟩
  | .local _ .vmem, ⟨4, _⟩ => ⟨S512x256, .bf16⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1_S_ : S1.ShapeCasts S_
  transposes_S512x256_S256x512_1_0 : S512x256.Transposes [1, 0] S256x512
  bcast_S_S256x512 : S_.BroadcastsInDim S256x512 (![] : Fin 0 → Fin S256x512.rank)
  reducesTo_S256x512_S256_d1 : S256x512.ReducesTo [1] S256
  h_S_ : 0 < S_.numel
  bcast_S256_S1x256_1 : S256.BroadcastsInDim S1x256 (![1] : Fin 1 → Fin S1x256.rank)
  transposes_S256x512_S512x256_1_0 : S256x512.Transposes [1, 0] S512x256
  bcast_S_S512x256 : S_.BroadcastsInDim S512x256 (![] : Fin 0 → Fin S512x256.rank)
  bitsLt_bf16_f32 : FTy.bits .bf16 < FTy.bits .f32
  bcast_S_S1x256 : S_.BroadcastsInDim S1x256 (![] : Fin 0 → Fin S1x256.rank)
  inb_S2048x256_S2048x256_0_0 : ∀ a, (![0, 0] : Fin 2 → Nat) a + S2048x256.size a ≤ S2048x256.size a
  h_S2048x256 : 0 < S2048x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  dot_S256x256_S256x512_S256x512_1_0_0_1_n_n_wf : DotDims.WF S256x256 S256x512 S256x512 [1] [0] [0] [1] [] []
  dot_S2048x256_S256x512_S2048x512_1_0_0_1_n_n_wf : DotDims.WF S2048x256 S256x512 S2048x512 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S65536x256.size a
  hwx0_5 : ∀ i : grid0.Coords, EltTy.bits .f32 = 32 ∨ (Rect.block (s := S65536x256) S2048x256.size (cc0_transform_5 i) (hinb0_5 i)).WholeWords (EltTy.packing .f32)

variable [Facts₀]

def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x256 : Shape := ⟨2, ![65536, 256]⟩
abbrev S512x256 : Shape := ⟨2, ![512, 256]⟩
abbrev S256x256 : Shape := ⟨2, ![256, 256]⟩
abbrev S1 : Shape := ⟨1, ![1]⟩
abbrev S256x512 : Shape := ⟨2, ![256, 512]⟩
abbrev S65536x512 : Shape := ⟨2, ![65536, 512]⟩
abbrev S_ : Shape := ⟨0, ![]⟩
abbrev S65536 : Shape := ⟨1, ![65536]⟩
abbrev S65536x1 : Shape := ⟨2, ![65536, 1]⟩
abbrev S256 : Shape := ⟨1, ![256]⟩
abbrev S1x256 : Shape := ⟨2, ![1, 256]⟩
abbrev S1x1 : Shape := ⟨2, ![1, 1]⟩

abbrev nBuf : Space → Nat
  | .hbm => 45
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S512x256, .f32⟩
  | .hbm, ⟨2, _⟩ => ⟨S256x256, .f32⟩
  | .hbm, ⟨3, _⟩ => ⟨S1, .f32⟩
  | .hbm, ⟨4, _⟩ => ⟨S1, .f32⟩
  | .hbm, ⟨5, _⟩ => ⟨S1, .f32⟩
  | .hbm, ⟨6, _⟩ => ⟨S256x512, .f32⟩
  | .hbm, ⟨7, _⟩ => ⟨S65536x512, .f32⟩
  | .hbm, ⟨8, _⟩ => ⟨S256x512, .f32⟩
  | .hbm, ⟨9, _⟩ => ⟨S256x512, .f32⟩
  | .hbm, ⟨10, _⟩ => ⟨S_, .f32⟩
  | .hbm, ⟨11, _⟩ => ⟨S65536x512, .f32⟩
  | .hbm, ⟨12, _⟩ => ⟨S65536x512, .f32⟩
  | .hbm, ⟨13, _⟩ => ⟨S_, .f32⟩
  | .hbm, ⟨14, _⟩ => ⟨S256x512, .f32⟩
  | .hbm, ⟨15, _⟩ => ⟨S256x512, .f32⟩
  | .hbm, ⟨16, _⟩ => ⟨S65536x512, .f32⟩
  | .hbm, ⟨17, _⟩ => ⟨S256x512, .f32⟩
  | .hbm, ⟨18, _⟩ => ⟨S512x256, .f32⟩
  | .hbm, ⟨19, _⟩ => ⟨S65536x256, .f32⟩
  | .hbm, ⟨20, _⟩ => ⟨S_, .f32⟩
  | .hbm, ⟨21, _⟩ => ⟨S65536, .f32⟩
  | .hbm, ⟨22, _⟩ => ⟨S65536x1, .f32⟩
  | .hbm, ⟨23, _⟩ => ⟨S512x256, .f32⟩
  | .hbm, ⟨24, _⟩ => ⟨S65536x256, .f32⟩
  | .hbm, ⟨25, _⟩ => ⟨S65536x256, .f32⟩
  | .hbm, ⟨26, _⟩ => ⟨S65536x256, .f32⟩
  | .hbm, ⟨27, _⟩ => ⟨S_, .f32⟩
  | .hbm, ⟨28, _⟩ => ⟨S256, .f32⟩
  | .hbm, ⟨29, _⟩ => ⟨S1x256, .f32⟩
  | .hbm, ⟨30, _⟩ => ⟨S512x256, .f32⟩
  | .hbm, ⟨31, _⟩ => ⟨S65536x256, .f32⟩
  | .hbm, ⟨32, _⟩ => ⟨S65536x256, .f32⟩
  | .hbm, ⟨33, _⟩ => ⟨S65536x256, .f32⟩
  | .hbm, ⟨34, _⟩ => ⟨S1x1, .f32⟩
  | .hbm, ⟨35, _⟩ => ⟨S65536x256, .f32⟩
  | .hbm, ⟨36, _⟩ => ⟨S65536x256, .f32⟩
  | .hbm, ⟨37, _⟩ => ⟨S1x1, .f32⟩
  | .hbm, ⟨38, _⟩ => ⟨S65536x256, .f32⟩
  | .hbm, ⟨39, _⟩ => ⟨S65536x256, .f32⟩
  | .hbm, ⟨40, _⟩ => ⟨S65536x256, .f32⟩
  | .hbm, ⟨41, _⟩ => ⟨S1x1, .f32⟩
  | .hbm, ⟨42, _⟩ => ⟨S65536x256, .f32⟩
  | .hbm, ⟨43, _⟩ => ⟨S65536x256, .f32⟩
  | .hbm, ⟨44, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_call1_cst : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  transposes_S512x256_S256x512_1_0 : S512x256.Transposes [1, 0] S256x512
  bcast_S_S65536x512 : S_.BroadcastsInDim S65536x512 (![] : Fin 0 → Fin S65536x512.rank)
  bcast_S_S256x512 : S_.BroadcastsInDim S256x512 (![] : Fin 0 → Fin S256x512.rank)
  transposes_S256x512_S512x256_1_0 : S256x512.Transposes [1, 0] S512x256
  reducesTo_S65536x512_S65536_d1 : S65536x512.ReducesTo [1] S65536
  h_S_ : 0 < S_.numel
  bcast_S65536_S65536x1_0 : S65536.BroadcastsInDim S65536x1 (![0] : Fin 1 → Fin S65536x1.rank)
  bcast_S65536x1_S65536x256_0_1 : S65536x1.BroadcastsInDim S65536x256 (![0, 1] : Fin 2 → Fin S65536x256.rank)
  reducesTo_S256x512_S256_d1 : S256x512.ReducesTo [1] S256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S1_S1x1_1 : S1.BroadcastsInDim S1x1 (![1] : Fin 1 → Fin S1x1.rank)
  bcast_S1x1_S65536x256_0_1 : S1x1.BroadcastsInDim S65536x256 (![0, 1] : Fin 2 → Fin S65536x256.rank)
  dot_S65536x256_S256x512_S65536x512_1_0_0_1_n_n_wf : DotDims.WF S65536x256 S256x512 S65536x512 [1] [0] [0] [1] [] []
  dot_S256x256_S256x512_S256x512_1_0_0_1_n_n_wf : DotDims.WF S256x256 S256x512 S256x512 [1] [0] [0] [1] [] []
  dot_S65536x512_S512x256_S65536x256_1_0_0_1_n_n_wf : DotDims.WF S65536x512 S512x256 S65536x256 [1] [0] [0] [1] [] []

variable [Facts₀]

def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf

class Facts : Prop extends Facts₀ where

variable [Facts]
-- ==== Proof.Spec.lean ====
/-
  The mathematics of the Tversky similarity layer, with no program in sight.

  For a batch row b and a prototype q write z k for the projection of the input row on feature k
  (the sum over d of x (b, d) * feat (k, d)) and w k for the projection of the prototype row on feature k.
  With s = max z 0 ("the feature is present") the reference computes

      theta * sum_k (z s)(w m)  -  alpha * (sum_k z s  -  sum_k (z s) m)  -  beta * (sum_k w m  -  sum_k s (w m)),     m = max w 0,

  and the kernel folds the three scalars into two tables and a bias:

      sum_k (s s) (theta * (w m) + alpha * (m - 1))  +  sum_k s (beta * (w m))  +  (-beta) * sum_k w m.

  Over the reals the two agree: z * max z 0 = (max z 0)^2 (both are z^2 for z >= 0 and 0 for z < 0), and the rest is
  distributivity of the product over finite sums.  Distributivity fails at the infinities of the extended reals, so the
  law is proved over the reals and carried to extended reals that are finite: there every operation involved (product,
  sum, difference, negation, maximum, finite sum) of real numbers is the real result.
-/
import Idealize.ShloMosaic.PureOps.Ideal.Laws
import Idealize.ShloMosaic.Lib.ValueIdx

noncomputable section

open scoped BigOperators

namespace Cert.Tversky

open Idealize.ShloMosaic Idealize.ShloMosaic.ValueIdx

/-! ## The law over the reals -/

section RealLaw
variable {K : Type} [Fintype K]

/-- A number times its positive part is the square of its positive part. -/
theorem mul_pos_part (z : ℝ) : z * max z 0 = max z 0 * max z 0 := by
  rcases le_total 0 z with h | h
  · rw [max_eq_left h]
  · rw [max_eq_right h, mul_zero, mul_zero]

/-- The folded form (two tables and a bias) equals the reference's three Tversky terms, feature by feature. -/
theorem real_law (z w : K → ℝ) (th al be : ℝ) :
    (∑ k, (max (z k) 0 * max (z k) 0) * (th * (w k * max (w k) 0) + al * (max (w k) 0 - 1)))
        + (∑ k, max (z k) 0 * (be * (w k * max (w k) 0)))
        + (-be) * (∑ k, w k * max (w k) 0)
      = th * (∑ k, (z k * max (z k) 0) * (w k * max (w k) 0))
        - al * ((∑ k, z k * max (z k) 0) - ∑ k, (z k * max (z k) 0) * max (w k) 0)
        - be * ((∑ k, w k * max (w k) 0) - ∑ k, max (z k) 0 * (w k * max (w k) 0)) := by
  simp only [mul_pos_part (z _)]
  simp only [Finset.mul_sum, ← Finset.sum_add_distrib, ← Finset.sum_sub_distrib]
  refine Finset.sum_congr rfl fun k _ => ?_
  ring

end RealLaw

/-! ## Real numbers inside the extended reals -/

/-- The inclusion of the reals preserves the maximum. -/
theorem coe_max (a b : ℝ) : ((max a b : ℝ) : EReal) = max (a : EReal) (b : EReal) :=
  EReal.coe_strictMono.monotone.map_max

/-- The inclusion of the reals preserves finite sums. -/
theorem coe_sum {K : Type} [Fintype K] (g : K → ℝ) : ((∑ k, g k : ℝ) : EReal) = ∑ k, (g k : EReal) := by
  classical
  refine Finset.induction_on (Finset.univ : Finset K) ?_ ?_
  · rw [Finset.sum_empty, Finset.sum_empty, EReal.coe_zero]
  · intro a s ha ih
    rw [Finset.sum_insert ha, Finset.sum_insert ha, EReal.coe_add, ih]

/-- The f32 word of 1.0 denotes the real number one. -/
theorem ofBits_one_f32 : Ideal.ofBits .f32 0x3F800000#32 = ((1 : ℝ) : EReal) := by
  simp [Ideal.ofBits, Ideal.ieee, -EReal.coe_mul]; norm_num

/-- The law on extended reals that are real numbers. -/
theorem ereal_law {K : Type} [Fintype K] (z w : K → ℝ) (th al be : ℝ) :
    (∑ k, (max (z k : EReal) 0 * max (z k : EReal) 0)
          * ((th : EReal) * ((w k : EReal) * max (w k : EReal) 0) + (al : EReal) * (max (w k : EReal) 0 - ((1 : ℝ) : EReal))))
        + (∑ k, max (z k : EReal) 0 * ((be : EReal) * ((w k : EReal) * max (w k : EReal) 0)))
        + (-(be : EReal)) * (∑ k, (w k : EReal) * max (w k : EReal) 0)
      = (th : EReal) * (∑ k, ((z k : EReal) * max (z k : EReal) 0) * ((w k : EReal) * max (w k : EReal) 0))
        - (al : EReal) * ((∑ k, (z k : EReal) * max (z k : EReal) 0) - ∑ k, ((z k : EReal) * max (z k : EReal) 0) * max (w k : EReal) 0)
        - (be : EReal) * ((∑ k, (w k : EReal) * max (w k : EReal) 0) - ∑ k, max (z k : EReal) 0 * ((w k : EReal) * max (w k : EReal) 0)) := by
  simp only [← EReal.coe_zero, ← coe_max, ← EReal.coe_mul, ← EReal.coe_sub, ← EReal.coe_add, ← EReal.coe_neg, ← coe_sum]
  exact congrArg _ (real_law z w th al be)

/-! ## The two programs' results as functions of the argument arrays -/

section Spec
variable (X : (⟨2, ![65536, 256]⟩ : Shape).Idx → EReal) (Fe : (⟨2, ![512, 256]⟩ : Shape).Idx → EReal)
  (Pr : (⟨2, ![256, 256]⟩ : Shape).Idx → EReal) (al be th : EReal)

/-- Input row b projected on feature k. -/
def xProj (b : Fin 65536) (k : Fin 512) : EReal := ∑ d : Fin 256, X (ix2 b d) * Fe (ix2 k d)

/-- Prototype row q projected on feature k. -/
def pProj (q : Fin 256) (k : Fin 512) : EReal := ∑ d : Fin 256, Pr (ix2 q d) * Fe (ix2 k d)

/-- The reference's result at (b, q): theta * common - alpha * (input-distinctive) - beta * (prototype-distinctive). -/
def refOut (b : Fin 65536) (q : Fin 256) : EReal :=
  th * (∑ k : Fin 512, (xProj X Fe b k * max (xProj X Fe b k) 0) * (pProj Fe Pr q k * max (pProj Fe Pr q k) 0))
    - al * ((∑ k : Fin 512, xProj X Fe b k * max (xProj X Fe b k) 0)
            - ∑ k : Fin 512, (xProj X Fe b k * max (xProj X Fe b k) 0) * max (pProj Fe Pr q k) 0)
    - be * ((∑ k : Fin 512, pProj Fe Pr q k * max (pProj Fe Pr q k) 0)
            - ∑ k : Fin 512, max (xProj X Fe b k) 0 * (pProj Fe Pr q k * max (pProj Fe Pr q k) 0))

/-- The kernel's result at (b, q): the squared positive parts against the first folded table, the positive parts
    against the second, plus the bias. -/
def kerOut (b : Fin 65536) (q : Fin 256) : EReal :=
  (∑ k : Fin 512, (max (xProj X Fe b k) 0 * max (xProj X Fe b k) 0)
        * (th * (pProj Fe Pr q k * max (pProj Fe Pr q k) 0) + al * (max (pProj Fe Pr q k) 0 - Ideal.ofBits .f32 0x3F800000#32)))
    + (∑ k : Fin 512, max (xProj X Fe b k) 0 * (be * (pProj Fe Pr q k * max (pProj Fe Pr q k) 0)))
    + (-be) * (∑ k : Fin 512, pProj Fe Pr q k * max (pProj Fe Pr q k) 0)

end Spec

/-- On finite inputs the kernel's function is the reference's. -/
theorem kerOut_eq_refOut (X : (⟨2, ![65536, 256]⟩ : Shape).Idx → EReal) (Fe : (⟨2, ![512, 256]⟩ : Shape).Idx → EReal)
    (Pr : (⟨2, ![256, 256]⟩ : Shape).Idx → EReal) (al be th : EReal)
    (hX : ∀ i, X i ≠ ⊤ ∧ X i ≠ ⊥) (hF : ∀ i, Fe i ≠ ⊤ ∧ Fe i ≠ ⊥) (hP : ∀ i, Pr i ≠ ⊤ ∧ Pr i ≠ ⊥)
    (ha : al ≠ ⊤ ∧ al ≠ ⊥) (hb : be ≠ ⊤ ∧ be ≠ ⊥) (ht : th ≠ ⊤ ∧ th ≠ ⊥) (b : Fin 65536) (q : Fin 256) :
    kerOut X Fe Pr al be th b q = refOut X Fe Pr al be th b q := by
  lift X to (⟨2, ![65536, 256]⟩ : Shape).Idx → ℝ using hX
  lift Fe to (⟨2, ![512, 256]⟩ : Shape).Idx → ℝ using hF
  lift Pr to (⟨2, ![256, 256]⟩ : Shape).Idx → ℝ using hP
  lift al to ℝ using ha
  lift be to ℝ using hb
  lift th to ℝ using ht
  have hx : ∀ k, xProj (fun i => (X i : EReal)) (fun i => (Fe i : EReal)) b k
      = ((∑ d : Fin 256, X (ix2 b d) * Fe (ix2 k d) : ℝ) : EReal) := fun k => by
    unfold xProj; simp only [← EReal.coe_mul, ← coe_sum]
  have hp : ∀ k, pProj (fun i => (Fe i : EReal)) (fun i => (Pr i : EReal)) q k
      = ((∑ d : Fin 256, Pr (ix2 q d) * Fe (ix2 k d) : ℝ) : EReal) := fun k => by
    unfold pProj; simp only [← EReal.coe_mul, ← coe_sum]
  unfold kerOut refOut
  simp only [hx, hp, ofBits_one_f32]
  exact ereal_law _ _ th al be

end Cert.Tversky

end
-- ==== Proof.Finite.lean ====
/-
  From the precondition to finiteness.

  The precondition is the conjunction, over the six argument arrays, of "every entry's absolute value is below
  +infinity": a comparison of each entry against the f32 word of +infinity, the comparisons of one array
  conjoined by a reduction with "and" from the bit 1, and the six results conjoined.  Read back: the
  conjunction is 1 only if each of its parts is; a reduction by "and" into one bit is 1 only if every entry
  it reduces is 1; and an extended real whose absolute value max x (-x) is below the top element is neither
  the top nor the bottom element, that is, it is a real number.
-/
import proofs.«404954_j20916490731764_3_alg».proof.Pre_finite_inputs
import Idealize.ShloMosaic.Lib.ReduceAll
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.Tversky.Finite

open Cert.Pre_finite_inputs

/-- The scalar shape has one index. -/
instance : Subsingleton S_.Idx := ⟨fun a b => funext fun d => d.elim0⟩

/-- The f32 word 0x7F800000 denotes the top element. -/
theorem inf_word : Ideal.ofBits .f32 0x7F800000#32 = ⊤ := by simp [Ideal.ofBits, Ideal.ieee]

/-- An extended real whose absolute value is strictly below the top element is a real number. -/
theorem real_of_abs_lt (x : EReal) (h : Ideal.cmp .olt (max x (-x)) ⊤ = 1#1) : x ≠ ⊤ ∧ x ≠ ⊥ := by
  induction x using EReal.rec with
  | bot => exact absurd h (by simp [Ideal.cmp])
  | top => exact absurd h (by simp [Ideal.cmp])
  | coe r => exact ⟨EReal.coe_ne_top r, EReal.coe_ne_bot r⟩

/-- A conjunction of two bit arrays, at an index. -/
theorem andi_at {s : Shape} {w : Nat} (x y : IVec s w) (i : s.Idx) : andi x y i = IntOp.andi (x i) (y i) := rfl

/-- One array's part of the precondition: if the "and" of all the comparisons is 1, every entry is a real number. -/
theorem all_real {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant S_ .f32 0x7F800000#32)))
        (constantI S_ 1 1#1) hr hu ix0 = 1#1) (i : s.Idx) : x i ≠ ⊤ ∧ x i ≠ ⊥ := by
  have e := Host.reduce_andi_all _ _ hr hu ix0 h i
  have eb : broadcastInDim s ![] hb (constant (F := Ideal) S_ .f32 0x7F800000#32) i = ⊤ :=
    (broadcastInDim_apply _ hb _ i ix0 (fun a => a.elim0)).trans inf_word
  refine real_of_abs_lt (x i) ?_
  have e' : Ideal.cmp .olt (max (x i) (-(x i))) (broadcastInDim s ![] hb (constant (F := Ideal) S_ .f32 0x7F800000#32) i) = 1#1 := e
  rw [eb] at e'
  exact e'

variable [Facts]

/-- The precondition makes every entry of every argument array a real number. -/
theorem of_pre (a0 : FVec Ideal S65536x256 .f32) (a1 : FVec Ideal S512x256 .f32) (a2 : FVec Ideal S256x256 .f32)
    (a3 a4 a5 : FVec Ideal S1 .f32) (h : fn (F := Ideal) a0 a1 a2 a3 a4 a5 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥)
      ∧ (∀ i, a3 i ≠ ⊤ ∧ a3 i ≠ ⊥) ∧ (∀ i, a4 i ≠ ⊤ ∧ a4 i ≠ ⊥) ∧ (∀ i, a5 i ≠ ⊤ ∧ a5 i ≠ ⊥) := by
  have h0 := congrFun h ix0
  dsimp only [fn, fn_part1] at h0
  simp only [andi_at, IntOp.andi_eq_one] at h0
  obtain ⟨⟨⟨⟨⟨h3, h7⟩, h12⟩, h17⟩, h22⟩, h27⟩ := h0
  exact ⟨all_real a0 _ _ _ h3, all_real a1 _ _ _ h7, all_real a2 _ _ _ h12, all_real a3 _ _ _ h17,
    all_real a4 _ _ _ h22, all_real a5 _ _ _ h27⟩

end Cert.Tversky.Finite

end
-- ==== Proof.RefValue.lean ====
/-
  The reference's result, read entry by entry, is the specification's refOut.

  The reference's host operations are read one at a time at explicit coordinates.  The two projections
  (rows of x, and rows of the prototypes, against the rows of the feature table) are sums over the 256 input
  coordinates; relu is the maximum with zero; the three interaction terms are sums over the 512 features; the
  two row sums start from the zero word, which adds nothing; the three scalars are one-entry arrays broadcast
  to the output's shape.
-/
import proofs.«404954_j20916490731764_3_alg».proof.Proof.Gen.ReferenceIdeal.Read
import proofs.«404954_j20916490731764_3_alg».proof.Proof.Spec

noncomputable section

open Idealize.ShloMosaic Idealize.ShloMosaic.ValueIdx

namespace Cert.Tversky.Ref

open Cert.ReferenceIdeal Cert.ReferenceIdeal.Read

variable (x0 : (⟨S65536x256, .f32⟩ : BufTy).Contents (Elt Ideal)) (x1 : (⟨S512x256, .f32⟩ : BufTy).Contents (Elt Ideal))
  (x2 : (⟨S256x256, .f32⟩ : BufTy).Contents (Elt Ideal)) (x3 x4 x5 : (⟨S1, .f32⟩ : BufTy).Contents (Elt Ideal))

/-- The zero word the reference's constants carry is the extended real zero. -/
theorem zero_word : (FloatOps.ofBits .f32 0x00000000#32 : Ideal .f32) = 0 := Ideal.ofBits_zero_f32

/-- Input row b against feature k. -/
theorem xproj_at (b : Fin 65536) (k : Fin 512) :
    val_main_v1 (F := Ideal) x0 x1 (ix2 b k) = xProj x0 x1 b k := by
  rw [val_main_v1_apply]
  unfold xProj
  refine Finset.sum_congr rfl fun d _ => ?_
  rw [val_main_v0_apply]
  have e1 : lidx_main_v1 (ix2 b k) d = ix2 b d := funext fun a => by match a with | ⟨0, _⟩ => rfl | ⟨1, _⟩ => rfl
  have e2 : idx_main_v0 (ridx_main_v1 (ix2 b k) d) = ix2 k d := funext fun a => by match a with | ⟨0, _⟩ => rfl | ⟨1, _⟩ => rfl
  rw [e1, e2]

/-- Prototype row q against feature k. -/
theorem pproj_at (q : Fin 256) (k : Fin 512) :
    val_main_v3 (F := Ideal) x1 x2 (ix2 q k) = pProj x1 x2 q k := by
  rw [val_main_v3_apply]
  unfold pProj
  refine Finset.sum_congr rfl fun d _ => ?_
  rw [val_main_v2_apply]
  have e1 : lidx_main_v3 (ix2 q k) d = ix2 q d := funext fun a => by match a with | ⟨0, _⟩ => rfl | ⟨1, _⟩ => rfl
  have e2 : idx_main_v2 (ridx_main_v3 (ix2 q k) d) = ix2 k d := funext fun a => by match a with | ⟨0, _⟩ => rfl | ⟨1, _⟩ => rfl
  rw [e1, e2]

/-- The input's present features: the positive part of the projection. -/
theorem xpresent_at (b : Fin 65536) (k : Fin 512) :
    val_main_v4 (F := Ideal) x0 x1 (ix2 b k) = max (xProj x0 x1 b k) 0 := by
  rw [val_main_v4_apply, val_main_call0_v0_apply, val_main_call0_cst_apply, xproj_at, zero_word]
  rfl

/-- The prototype's present features. -/
theorem ppresent_at (q : Fin 256) (k : Fin 512) :
    val_main_v5 (F := Ideal) x1 x2 (ix2 q k) = max (pProj x1 x2 q k) 0 := by
  rw [val_main_v5_apply, val_main_call1_v0_apply, val_main_call1_cst_apply, pproj_at, zero_word]
  rfl

/-- The input's weighted features. -/
theorem xweighted_at (b : Fin 65536) (k : Fin 512) :
    val_main_v6 (F := Ideal) x0 x1 (ix2 b k) = xProj x0 x1 b k * max (xProj x0 x1 b k) 0 := by
  rw [val_main_v6_apply, xproj_at, xpresent_at]
  rfl

/-- The prototype's weighted features. -/
theorem pweighted_at (q : Fin 256) (k : Fin 512) :
    val_main_v7 (F := Ideal) x1 x2 (ix2 q k) = pProj x1 x2 q k * max (pProj x1 x2 q k) 0 := by
  rw [val_main_v7_apply, pproj_at, ppresent_at]
  rfl

/-- The common term: weighted input features against weighted prototype features. -/
theorem common_at (b : Fin 65536) (q : Fin 256) :
    val_main_v9 (F := Ideal) x0 x1 x2 (ix2 b q)
      = ∑ k : Fin 512, (xProj x0 x1 b k * max (xProj x0 x1 b k) 0) * (pProj x1 x2 q k * max (pProj x1 x2 q k) 0) := by
  rw [val_main_v9_apply]
  refine Finset.sum_congr rfl fun k _ => ?_
  rw [val_main_v8_apply]
  have e1 : lidx_main_v9 (ix2 b q) k = ix2 b k := funext fun a => by match a with | ⟨0, _⟩ => rfl | ⟨1, _⟩ => rfl
  have e2 : idx_main_v8 (ridx_main_v9 (ix2 b q) k) = ix2 q k := funext fun a => by match a with | ⟨0, _⟩ => rfl | ⟨1, _⟩ => rfl
  rw [e1, e2, xweighted_at, pweighted_at]

/-- The input's weighted row sum, repeated along the output row. -/
theorem xsum_at (b : Fin 65536) (q : Fin 256) :
    val_main_v14 (F := Ideal) x0 x1 (ix2 b q) = ∑ k : Fin 512, xProj x0 x1 b k * max (xProj x0 x1 b k) 0 := by
  rw [val_main_v14_apply, val_main_v11_apply, val_main_v10_apply, val_main_cst_apply, zero_word, zero_add]
  refine Finset.sum_congr rfl fun k _ => ?_
  have e : idx_main_v10 (idx_main_v11 (idx_main_v14 (ix2 b q))) k = ix2 b k :=
    funext fun a => by match a with | ⟨0, _⟩ => rfl | ⟨1, _⟩ => rfl
  rw [e, xweighted_at]

/-- Weighted input features against the prototype's present features. -/
theorem xinter_at (b : Fin 65536) (q : Fin 256) :
    val_main_v13 (F := Ideal) x0 x1 x2 (ix2 b q)
      = ∑ k : Fin 512, (xProj x0 x1 b k * max (xProj x0 x1 b k) 0) * max (pProj x1 x2 q k) 0 := by
  rw [val_main_v13_apply]
  refine Finset.sum_congr rfl fun k _ => ?_
  rw [val_main_v12_apply]
  have e1 : lidx_main_v13 (ix2 b q) k = ix2 b k := funext fun a => by match a with | ⟨0, _⟩ => rfl | ⟨1, _⟩ => rfl
  have e2 : idx_main_v12 (ridx_main_v13 (ix2 b q) k) = ix2 q k := funext fun a => by match a with | ⟨0, _⟩ => rfl | ⟨1, _⟩ => rfl
  rw [e1, e2, xweighted_at, ppresent_at]

/-- The prototype's weighted row sum, repeated down the output column. -/
theorem psum_at (b : Fin 65536) (q : Fin 256) :
    val_main_v20 (F := Ideal) x1 x2 (ix2 b q) = ∑ k : Fin 512, pProj x1 x2 q k * max (pProj x1 x2 q k) 0 := by
  rw [val_main_v20_apply, val_main_v17_apply, val_main_v16_apply, val_main_cst_0_apply, zero_word, zero_add]
  refine Finset.sum_congr rfl fun k _ => ?_
  have e : idx_main_v16 (idx_main_v17 (idx_main_v20 (ix2 b q))) k = ix2 q k :=
    funext fun a => by match a with | ⟨0, _⟩ => rfl | ⟨1, _⟩ => rfl
  rw [e, pweighted_at]

/-- The input's present features against weighted prototype features. -/
theorem pinter_at (b : Fin 65536) (q : Fin 256) :
    val_main_v19 (F := Ideal) x0 x1 x2 (ix2 b q)
      = ∑ k : Fin 512, max (xProj x0 x1 b k) 0 * (pProj x1 x2 q k * max (pProj x1 x2 q k) 0) := by
  rw [val_main_v19_apply]
  refine Finset.sum_congr rfl fun k _ => ?_
  rw [val_main_v18_apply]
  have e1 : lidx_main_v19 (ix2 b q) k = ix2 b k := funext fun a => by match a with | ⟨0, _⟩ => rfl | ⟨1, _⟩ => rfl
  have e2 : idx_main_v18 (ridx_main_v19 (ix2 b q) k) = ix2 q k := funext fun a => by match a with | ⟨0, _⟩ => rfl | ⟨1, _⟩ => rfl
  rw [e1, e2, xpresent_at, pweighted_at]

/-- A one-entry array broadcast to the output's shape reads its one entry: theta, -/
theorem theta_at (b : Fin 65536) (q : Fin 256) : val_main_v23 (F := Ideal) x5 (ix2 b q) = x5 (ix1 (0 : Fin 1)) := by
  rw [val_main_v23_apply, val_main_v22_apply]
  exact congrArg x5 (funext fun a => by match a with | ⟨0, _⟩ => rfl)
/-- alpha, -/
theorem alpha_at (b : Fin 65536) (q : Fin 256) : val_main_v26 (F := Ideal) x3 (ix2 b q) = x3 (ix1 (0 : Fin 1)) := by
  rw [val_main_v26_apply, val_main_v25_apply]
  exact congrArg x3 (funext fun a => by match a with | ⟨0, _⟩ => rfl)
/-- and beta. -/
theorem beta_at (b : Fin 65536) (q : Fin 256) : val_main_v30 (F := Ideal) x4 (ix2 b q) = x4 (ix1 (0 : Fin 1)) := by
  rw [val_main_v30_apply, val_main_v29_apply]
  exact congrArg x4 (funext fun a => by match a with | ⟨0, _⟩ => rfl)

/-- The reference's result at (b, q) is the specification's. -/
theorem result_at (b : Fin 65536) (q : Fin 256) :
    val_main_v32 (F := Ideal) x0 x1 x2 x3 x4 x5 (ix2 b q)
      = refOut x0 x1 x2 (x3 (ix1 (0 : Fin 1))) (x4 (ix1 (0 : Fin 1))) (x5 (ix1 (0 : Fin 1))) b q := by
  rw [val_main_v32_apply, val_main_v28_apply, val_main_v24_apply, val_main_v27_apply, val_main_v31_apply,
    val_main_v15_apply, val_main_v21_apply, theta_at, alpha_at, beta_at, common_at, xsum_at, xinter_at, psum_at, pinter_at]
  rfl

/-- The reference's result array, as one function of the argument arrays. -/
theorem result_eq :
    val_main_v32 (F := Ideal) x0 x1 x2 x3 x4 x5
      = fun i => refOut x0 x1 x2 (x3 (ix1 (0 : Fin 1))) (x4 (ix1 (0 : Fin 1))) (x5 (ix1 (0 : Fin 1))) (i 0) (i 1) := by
  funext i
  obtain ⟨b, q, rfl⟩ : ∃ (b : Fin 65536) (q : Fin 256), i = ix2 b q := ⟨i 0, i 1, eq_ix2 i⟩
  exact result_at x0 x1 x2 x3 x4 x5 b q

end Cert.Tversky.Ref

end
-- ==== Proof.LibPlainDot.lean ====
/-
  General facts about a matrix product of the plain kind, read at one entry on the extended reals.

  The product of an M x K left operand with a K x N right operand, no batch axis, the left contracted on its second
  axis and the right on its first, accumulated into the zero array: entry (a, j) is the sum over k of
  left (a, k) * right (k, j).  The contraction index of such a product has one axis, of extent K, and is re-indexed by
  its one coordinate; the operand indices at output (a, j) and contraction k are (a, k) and (k, j).

  A column [M, 1] broadcast along the second axis to [M, N] reads, at (a, j), the column's entry (a, 0).

  A record of dimension numbers printed with a program is this plain one whenever its six lists are
  [1], [0], [0], [1], [], [] (the seventh field is a proof), by reflexivity; the lemmas are stated for
  DotDims.plain M K N so that they serve every such record.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable (M K N : Nat)

/-- The left operand's row coordinate at output index j is j's row. -/
theorem plain_lhs_row (j : (⟨2, ![M, N]⟩ : Shape).Idx) (q : (DotDims.plain M K N).contr.Idx) :
    ((DotDims.plain M K N).lhsIdx j q 0).val = (j 0).val := rfl
/-- The left operand's column coordinate is the contraction index's one coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's row coordinate is the contraction index's one coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- The right operand's column coordinate at output index j is j's column. -/
theorem plain_rhs_col (j : (⟨2, ![M, N]⟩ : Shape).Idx) (q : (DotDims.plain M K N).contr.Idx) :
    ((DotDims.plain M K N).rhsIdx j q 1).val = (j 1).val := rfl

/-- A plain matrix product into the zero accumulator, at entry (a, j): the sum over k of W (a, k) * X (k, j). -/
theorem matmul_plain_zero (W : FVec Ideal ⟨2, ![M, K]⟩ .f32) (X : FVec Ideal ⟨2, ![K, N]⟩ .f32) (a : Fin M) (j : Fin N) :
    matmul (DotDims.plain M K N) none W X (constant ⟨2, ![M, N]⟩ .f32 0x00000000#32) (ix2 a j)
      = ∑ k : Fin K, W (ix2 a k) * X (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a j) ((contrEquiv1 (DotDims.plain M K N) K rfl rfl).symm k) = ix2 a k :=
    funext fun b => Fin.ext (by
      match b with
      | ⟨0, _⟩ => exact plain_lhs_row M K N _ _
      | ⟨1, _⟩ => exact (plain_lhs_col M K N _ _).trans hk)
  have er : (DotDims.plain M K N).rhsIdx (ix2 a j) ((contrEquiv1 (DotDims.plain M K N) K rfl rfl).symm k) = ix2 k j :=
    funext fun b => Fin.ext (by
      match b with
      | ⟨0, _⟩ => exact (plain_rhs_row M K N _ _).trans hk
      | ⟨1, _⟩ => exact plain_rhs_col M K N _ _)
  rw [el, er]

/-- A column broadcast along the second axis reads the column's entry of the same row. -/
theorem broadcast_col {α : Type} (b : (⟨2, ![M, 1]⟩ : Shape).Idx → α) (hb : (⟨2, ![M, 1]⟩ : Shape).Broadcasts ⟨2, ![M, N]⟩)
    (a : Fin M) (j : Fin N) : broadcastTo ⟨2, ![M, N]⟩ b hb (ix2 a j) = b (ix2 a 0) :=
  broadcastTo_apply b hb (ix2 a j) (ix2 a 0) (fun ax => by
    match ax with
    | ⟨0, _⟩ =>
      show a.val = if M = 1 then 0 else a.val
      split
      · have := a.isLt; omega
      · rfl
    | ⟨1, _⟩ =>
      show 0 = if (1 : Nat) = 1 then 0 else j.val
      rw [if_pos rfl])

end Cert.LibPlainDot

end
-- ==== Proof.LibPlainAny.lean ====
/-
  A plain matrix product on the extended reals, whatever float formats its operands carry.

  The product of an M x K left operand with a K x N right operand (no batch axis, the left contracted on its
  second axis, the right on its first) has at entry (a, j) the value: sum over k of left (a, k) * right (k, j).
  On the extended reals a change of float format is the identity, so this reading does not depend on the
  operands' formats: it holds for a kernel's product of bf16 operands accumulated into the f32 zero array,
  and for the host's product, which has no accumulator, alike.

  The contraction index of a plain product has one axis of extent K; re-indexed by its one coordinate k, the
  operand indices at output (a, j) are (a, k) and (k, j).
-/
import proofs.«404954_j20916490731764_3_alg».proof.Proof.LibPlainDot

noncomputable section

namespace Cert.LibPlainAny

open Idealize.ShloMosaic Idealize.ShloMosaic.ValueIdx

variable (M K N : Nat)

/-- The left operand's index at output (a, j) and contraction coordinate k is (a, k). -/
theorem plain_lhsIdx (a : Fin M) (j : Fin N) (k : Fin K) :
    (DotDims.plain M K N).lhsIdx (ix2 a j) ((contrEquiv1 (DotDims.plain M K N) K rfl rfl).symm k) = ix2 a k :=
  funext fun b => Fin.ext (by
    have hk := contrEquiv1_symm_val (DotDims.plain M K N) K rfl rfl k
    match b with
    | ⟨0, _⟩ => exact Cert.LibPlainDot.plain_lhs_row M K N _ _
    | ⟨1, _⟩ => exact (Cert.LibPlainDot.plain_lhs_col M K N _ _).trans hk)

/-- The right operand's index at output (a, j) and contraction coordinate k is (k, j). -/
theorem plain_rhsIdx (a : Fin M) (j : Fin N) (k : Fin K) :
    (DotDims.plain M K N).rhsIdx (ix2 a j) ((contrEquiv1 (DotDims.plain M K N) K rfl rfl).symm k) = ix2 k j :=
  funext fun b => Fin.ext (by
    have hk := contrEquiv1_symm_val (DotDims.plain M K N) K rfl rfl k
    match b with
    | ⟨0, _⟩ => exact (Cert.LibPlainDot.plain_rhs_row M K N _ _).trans hk
    | ⟨1, _⟩ => exact Cert.LibPlainDot.plain_rhs_col M K N _ _)

/-- A kernel's plain product into the zero array, operands of any formats, at entry (a, j). -/
theorem matmul_plain_zero_any {φ₁ φ₂ : FTy} (W : FVec Ideal ⟨2, ![M, K]⟩ φ₁) (X : FVec Ideal ⟨2, ![K, N]⟩ φ₂)
    (a : Fin M) (j : Fin N) :
    matmul (DotDims.plain M K N) none W X (constant ⟨2, ![M, N]⟩ .f32 0x00000000#32) (ix2 a j)
      = ∑ k : Fin K, (W (ix2 a k) : EReal) * (X (ix2 k j) : EReal) := by
  simp only [matmul]
  rw [Ideal.matmul_constant_zero_apply, ← Equiv.sum_comp (contrEquiv1 (DotDims.plain M K N) K rfl rfl).symm]
  refine Finset.sum_congr rfl fun k _ => ?_
  rw [plain_lhsIdx, plain_rhsIdx]

/-- The host's plain product, operands of any formats, at entry (a, j). -/
theorem dotGeneral_plain_any {φ₁ φ₂ : FTy} (W : FVec Ideal ⟨2, ![M, K]⟩ φ₁) (X : FVec Ideal ⟨2, ![K, N]⟩ φ₂)
    (a : Fin M) (j : Fin N) :
    Host.dotGeneral (DotDims.plain M K N) none W X (ix2 a j)
      = ∑ k : Fin K, (W (ix2 a k) : EReal) * (X (ix2 k j) : EReal) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainAny

end
-- ==== Proof.KernelBody.lean ====
/-
  The kernel's body at one entry of its output block, on the extended reals.

  At a grid point the body reads a 2048 x 256 block x of input rows, the 256 x 512 transposed feature table f,
  the two folded 512 x 256 tables g and h and the 1 x 256 bias row c, and stores

      (relu (x f))^2 g  +  relu (x f) h  +  c      (the bias row repeated down the rows),

  the products being matrix products and relu the entrywise maximum with zero.  The changes of float format in
  the body are the identity on the extended reals.  At entry (r, q), with  s k = max (sum_d x (r, d) * f (d, k)) 0 :

      (sum_k (s k * s k) * g (k, q))  +  (sum_k s k * h (k, q))  +  c (0, q).

  The three dimension records the program prints are plain M x K by K x N products.
-/
import proofs.«404954_j20916490731764_3_alg».proof.Proof.Gen.KernelIdeal.Skeleton
import proofs.«404954_j20916490731764_3_alg».proof.Proof.LibPlainAny
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.Tversky.Body

open Cert.KernelIdeal Cert.KernelIdeal.Gen

/-- The record of the first product (input rows by the transposed feature table) is the plain 2048 x 256 by 256 x 512 one. -/
theorem dot_proj_eq : dot_S2048x256_S256x512_S2048x512_1_0_0_1_n_n = DotDims.plain 2048 256 512 := rfl

/-- The record of the two table products is the plain 2048 x 512 by 512 x 256 one. -/
theorem dot_table_eq : dot_S2048x512_S512x256_S2048x256_1_0_0_1_n_n = DotDims.plain 2048 512 256 := rfl

/-- The scalar zero the body splats denotes the extended real zero. -/
theorem scalar_zero : (Scalar.ofBits .f32 0x00000000#32 : Ideal .f32) = 0 := Ideal.ofBits_zero_f32

/-- The stored value at entry (r, q) of the block. -/
theorem payload_at (x0 : Vec Ideal S2048x256 .f32) (x1 : Vec Ideal S256x512 .bf16) (x2 x3 : Vec Ideal S512x256 .bf16)
    (x4 : Vec Ideal S1x256 .f32) (r : Fin 2048) (q : Fin 256) :
    k0_pay1 x0 x1 x2 x3 x4 (ix2 r q)
      = ((∑ k : Fin 512, (max (∑ d : Fin 256, (x0 (ix2 r d) : EReal) * (x1 (ix2 d k) : EReal)) 0
                            * max (∑ d : Fin 256, (x0 (ix2 r d) : EReal) * (x1 (ix2 d k) : EReal)) 0) * (x2 (ix2 k q) : EReal))
          + ∑ k : Fin 512, max (∑ d : Fin 256, (x0 (ix2 r d) : EReal) * (x1 (ix2 d k) : EReal)) 0 * (x3 (ix2 k q) : EReal))
        + (x4 (ix2 (0 : Fin 1) q) : EReal) := by
  unfold k0_pay1
  simp only [shapeCast_self, dot_proj_eq, dot_table_eq]
  rw [addf_apply, addf_apply, broadcastTo_1b_ab_apply, Cert.LibPlainAny.matmul_plain_zero_any,
    Cert.LibPlainAny.matmul_plain_zero_any]
  simp only [mulf_apply, truncf_apply, maximumf_apply, broadcast_apply, scalar_zero,
    Cert.LibPlainAny.matmul_plain_zero_any]

end Cert.Tversky.Body

end
-- ==== Proof.KernelTables.lean ====
/-
  The four tables the kernel's host code prepares, read entry by entry.

  Before the region the host code computes, from the feature table, the prototypes and the three scalars:
  the prototype projections w (q, k) = sum_d proto (q, d) * feat (k, d), their positive parts m = max w 0 and the
  weighted features w m; then
    * the transposed feature table:   entry (d, k) is feat (k, d);
    * the first folded table:         entry (k, q) is theta * (w m)(q, k) + alpha * (m (q, k) - 1);
    * the second folded table:        entry (k, q) is beta * (w m)(q, k);
    * the bias row:                   entry (0, q) is (-beta) * sum_k (w m)(q, k)   (the row sum starts from the zero word).
  The conversions to bf16 are the identity on the extended reals.  The region finds exactly these arrays under its
  second to fifth windows.
-/
import proofs.«404954_j20916490731764_3_alg».proof.Proof.Gen.KernelIdeal.Frame
import proofs.«404954_j20916490731764_3_alg».proof.Proof.LibPlainAny
import proofs.«404954_j20916490731764_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open Idealize.ShloMosaic Idealize.ShloMosaic.TcCoe Idealize.SL.Sem Idealize.ShloMosaic.ValueIdx

namespace Cert.Tversky.Tables

open Cert.KernelIdeal Cert.KernelIdeal.Gen

/-! ## The host operations' terms -/

section Terms
variable (Fe : FVec Ideal S512x256 .f32) (Pr : FVec Ideal S256x256 .f32) (A B T : FVec Ideal S1 .f32)

/-- The prototypes projected on the features. -/
def protoProj : FVec Ideal S256x512 .f32 :=
  Host.dotGeneral dot_S256x256_S256x512_S256x512_1_0_0_1_n_n none Pr (transpose S256x512 [1, 0] Fe transposes_S512x256_S256x512_1_0)

/-- Their positive parts. -/
def protoPresent : FVec Ideal S256x512 .f32 :=
  maximumf (protoProj Fe Pr) (broadcastInDim S256x512 ![] bcast_S_S256x512 (constant S_ .f32 0x00000000#32))

/-- The weighted prototype features. -/
def protoWeighted : FVec Ideal S256x512 .f32 := mulf (protoProj Fe Pr) (protoPresent Fe Pr)

/-- A one-entry array as a scalar. -/
def scalarOf (S : FVec Ideal S1 .f32) : FVec Ideal S_ .f32 := shapeCast S_ S shapeCasts_S1_S_

/-- The transposed feature table (second window). -/
def featT : FVec Ideal S256x512 .bf16 :=
  transpose S256x512 [1, 0] (truncf .bf16 Fe bitsLt_bf16_f32) transposes_S512x256_S256x512_1_0

/-- The first folded table (third window). -/
def table1 : FVec Ideal S512x256 .bf16 :=
  truncf .bf16
    (addf
      (mulf (broadcastInDim S512x256 ![] bcast_S_S512x256 (scalarOf T))
        (transpose S512x256 [1, 0] (protoWeighted Fe Pr) transposes_S256x512_S512x256_1_0))
      (mulf (broadcastInDim S512x256 ![] bcast_S_S512x256 (scalarOf A))
        (subf (transpose S512x256 [1, 0] (protoPresent Fe Pr) transposes_S256x512_S512x256_1_0)
          (broadcastInDim S512x256 ![] bcast_S_S512x256 (constant S_ .f32 0x3F800000#32)))))
    bitsLt_bf16_f32

/-- The second folded table (fourth window). -/
def table2 : FVec Ideal S512x256 .bf16 :=
  truncf .bf16
    (mulf (broadcastInDim S512x256 ![] bcast_S_S512x256 (scalarOf B))
      (transpose S512x256 [1, 0] (protoWeighted Fe Pr) transposes_S256x512_S512x256_1_0))
    bitsLt_bf16_f32

/-- The bias row (fifth window). -/
def biasRow : FVec Ideal S1x256 .f32 :=
  mulf (broadcastInDim S1x256 ![] bcast_S_S1x256 (Host.negf (scalarOf B)))
    (broadcastInDim S1x256 ![1] bcast_S256_S1x256_1
      (Host.reduceAdd (protoWeighted Fe Pr) (constant S_ .f32 0x00000000#32) reducesTo_S256x512_S256_d1 h_S_))

/-! ## Read at an entry -/

/-- The host product's record is the plain 256 x 256 by 256 x 512 one. -/
theorem dot_host_eq : dot_S256x256_S256x512_S256x512_1_0_0_1_n_n = DotDims.plain 256 256 512 := rfl

/-- A scalar broadcast to any shape reads the scalar. -/
theorem splat_at {t : Shape} (h : S_.BroadcastsInDim t (![] : Fin 0 → Fin t.rank)) (x : FVec Ideal S_ .f32) (j : t.Idx) :
    broadcastInDim t ![] h x j = x ix0 :=
  broadcastInDim_apply _ h x j ix0 (fun a => a.elim0)

/-- A one-entry array as a scalar reads its one entry. -/
theorem scalarOf_at (S : FVec Ideal S1 .f32) : scalarOf S ix0 = S (ix1 (0 : Fin 1)) := by
  unfold scalarOf
  refine shapeCast_apply S shapeCasts_S1_S_ ix0 (ix1 (0 : Fin 1)) ?_
  have h1 := (S1.rowMajor (ix1 (0 : Fin 1))).isLt
  have h2 := (S_.rowMajor ix0).isLt
  have n1 : S1.numel = 1 := by decide
  have n0 : S_.numel = 1 := by decide
  omega

theorem protoProj_at (q : Fin 256) (k : Fin 512) : protoProj Fe Pr (ix2 q k) = pProj Fe Pr q k := by
  unfold protoProj pProj
  rw [dot_host_eq, Cert.LibPlainAny.dotGeneral_plain_any]
  refine Finset.sum_congr rfl fun d _ => ?_
  rw [transpose_ix2_apply]

theorem protoPresent_at (q : Fin 256) (k : Fin 512) : protoPresent Fe Pr (ix2 q k) = max (pProj Fe Pr q k) 0 := by
  unfold protoPresent
  rw [maximumf_apply, protoProj_at, splat_at, constant_apply, Ideal.ofBits_zero_f32]

theorem protoWeighted_at (q : Fin 256) (k : Fin 512) :
    protoWeighted Fe Pr (ix2 q k) = pProj Fe Pr q k * max (pProj Fe Pr q k) 0 := by
  unfold protoWeighted
  rw [mulf_apply, protoProj_at, protoPresent_at]

theorem featT_at (d : Fin 256) (k : Fin 512) : featT Fe (ix2 d k) = Fe (ix2 k d) := by
  unfold featT
  rw [transpose_ix2_apply, truncf_apply]

theorem table1_at (k : Fin 512) (q : Fin 256) :
    table1 Fe Pr A T (ix2 k q)
      = T (ix1 (0 : Fin 1)) * (pProj Fe Pr q k * max (pProj Fe Pr q k) 0)
        + A (ix1 (0 : Fin 1)) * (max (pProj Fe Pr q k) 0 - Ideal.ofBits .f32 0x3F800000#32) := by
  unfold table1
  rw [truncf_apply, addf_apply, mulf_apply, mulf_apply, subf_apply, splat_at, splat_at, splat_at, scalarOf_at, scalarOf_at,
    transpose_ix2_apply, transpose_ix2_apply, protoWeighted_at, protoPresent_at, constant_apply]

theorem table2_at (k : Fin 512) (q : Fin 256) :
    table2 Fe Pr B (ix2 k q) = B (ix1 (0 : Fin 1)) * (pProj Fe Pr q k * max (pProj Fe Pr q k) 0) := by
  unfold table2
  rw [truncf_apply, mulf_apply, splat_at, scalarOf_at, transpose_ix2_apply, protoWeighted_at]

theorem biasRow_at (q : Fin 256) :
    biasRow Fe Pr B (ix2 (0 : Fin 1) q)
      = (-(B (ix1 (0 : Fin 1)))) * ∑ k : Fin 512, pProj Fe Pr q k * max (pProj Fe Pr q k) 0 := by
  unfold biasRow
  rw [mulf_apply, splat_at]
  have e1 : Host.negf (scalarOf B) ix0 = -(B (ix1 (0 : Fin 1))) := by
    show -(scalarOf B ix0) = _
    rw [scalarOf_at]
  have e2 : ∀ v : FVec Ideal S256 .f32, broadcastInDim S1x256 ![1] bcast_S256_S1x256_1 v (ix2 (0 : Fin 1) q) = v (ix1 q) := fun v =>
    broadcastInDim_apply _ bcast_S256_S1x256_1 v (ix2 (0 : Fin 1) q) (ix1 q) (fun a => match a with
      | ⟨0, _⟩ => by show q.val = if (256 : Nat) = 1 then 0 else q.val; rw [if_neg (by decide)])
  rw [e1, e2]
  refine congrArg (-(B (ix1 (0 : Fin 1))) * ·) ?_
  simp only [Host.reduceAdd, Ideal.hostReduceAdd_def]
  rw [Ideal.hostReduceAdd_single reducesTo_S256x512_S256_d1 (by decide)]
  rw [constant_apply, Ideal.ofBits_zero_f32, zero_add]
  refine Finset.sum_congr rfl fun k _ => ?_
  refine (congrArg (protoWeighted Fe Pr) (funext fun a => Fin.ext ?_)).trans (protoWeighted_at Fe Pr q k)
  match a with
  | ⟨0, _⟩ => rfl
  | ⟨1, _⟩ => rfl

end Terms

/-! ## What the region finds under its second to fifth windows -/

section Region
variable (m : (ℓ : Loc nD τ sig) → Buf (Elt Ideal) ℓ)

/-- The argument arrays, by their literal types. -/
abbrev argX (c : Dev nD) : FVec Ideal S65536x256 .f32 := m ((c : Thread nD τ).loc main_arg0)
abbrev argF (c : Dev nD) : FVec Ideal S512x256 .f32 := m ((c : Thread nD τ).loc main_arg1)
abbrev argP (c : Dev nD) : FVec Ideal S256x256 .f32 := m ((c : Thread nD τ).loc main_arg2)
abbrev argA (c : Dev nD) : FVec Ideal S1 .f32 := m ((c : Thread nD τ).loc main_arg3)
abbrev argB (c : Dev nD) : FVec Ideal S1 .f32 := m ((c : Thread nD τ).loc main_arg4)
abbrev argT (c : Dev nD) : FVec Ideal S1 .f32 := m ((c : Thread nD τ).loc main_arg5)

/-- The second window's array is the transposed feature table. -/
theorem V_featT (c : Dev nD) : (V m c main_v26 : S256x512.Idx → EReal) = featT (argF m c) := by
  dsimp only [V]
  simp only [hostOps0, hostOps0_1, hostOps0_2, List.flatten_cons, List.flatten_nil, List.append_nil, List.cons_append,
    List.nil_append]
  after_results
  rfl

set_option maxHeartbeats 2000000 in
/-- The third window's array is the first folded table. -/
theorem V_table1 (c : Dev nD) :
    (V m c main_v20 : S512x256.Idx → EReal) = table1 (argF m c) (argP m c) (argA m c) (argT m c) := by
  dsimp only [V]
  simp only [hostOps0, hostOps0_1, hostOps0_2, List.flatten_cons, List.flatten_nil, List.append_nil, List.cons_append,
    List.nil_append]
  after_results
  rfl

/-- The fourth window's array is the second folded table. -/
theorem V_table2 (c : Dev nD) : (V m c main_v21 : S512x256.Idx → EReal) = table2 (argF m c) (argP m c) (argB m c) := by
  dsimp only [V]
  simp only [hostOps0, hostOps0_1, hostOps0_2, List.flatten_cons, List.flatten_nil, List.append_nil, List.cons_append,
    List.nil_append]
  after_results
  rfl

/-- The fifth window's array is the bias row. -/
theorem V_bias (c : Dev nD) : (V m c main_v24 : S1x256.Idx → EReal) = biasRow (argF m c) (argP m c) (argB m c) := by
  dsimp only [V]
  simp only [hostOps0, hostOps0_1, hostOps0_2, List.flatten_cons, List.flatten_nil, List.append_nil, List.cons_append,
    List.nil_append]
  after_results
  rfl

end Region

end Cert.Tversky.Tables

end
-- ==== Proof.KernelValue.lean ====
/-
  The kernel's result array, as one function of the argument arrays.

  The grid has 32 points; point t reads rows 2048 t .. 2048 t + 2047 of the input (all 256 columns), reads the four
  resident tables whole, and writes back rows 2048 t .. 2048 t + 2047 of the output.  So what point t writes back at
  block entry (r, q) is the body's value with input row b = 2048 t + r, and with the four tables read as the host code
  prepared them this is the specification's kerOut at (b, q): the projection of row b on feature k is
  sum_d x (b, d) * feat (k, d) because the transposed table at (d, k) is feat (k, d).  The 32 blocks tile the
  65536 rows (row b lies in block b / 2048), so the array after the run is kerOut everywhere.
-/
import proofs.«404954_j20916490731764_3_alg».proof.Proof.Gen.KernelIdeal.Frame
import proofs.«404954_j20916490731764_3_alg».proof.Proof.Gen.KernelIdeal.Value
import proofs.«404954_j20916490731764_3_alg».proof.Proof.KernelBody
import proofs.«404954_j20916490731764_3_alg».proof.Proof.KernelTables
import proofs.«404954_j20916490731764_3_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Tversky.Kernel

open Cert.KernelIdeal Cert.KernelIdeal.Gen Cert.Tversky.Tables

variable (m : (ℓ : Loc nD τ sig) → Buf (Elt Ideal) ℓ) (ρ : Dev nD → PrngReg)

theorem hz : (![0, 0] : Fin 2 → Nat) = fun _ => 0 := funext fun a => by fin_cases a <;> rfl

/-- The result array: kerOut of the argument arrays at every (b, q). -/
def result (c : Dev nD) : FVec Ideal S65536x256 .f32 := fun i =>
  kerOut (argX m c) (argF m c) (argP m c) (argA m c (ix1 (0 : Fin 1))) (argB m c (ix1 (0 : Fin 1)))
    (argT m c (ix1 (0 : Fin 1))) (i 0) (i 1)

/-- The printed index maps over the grid: the input and the output move down one block of rows per point, the four
    tables stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The blocks at a point -/

/-- The input block at point t, entry (r, d), is the input at row 2048 t + r. -/
theorem xblk_at (c : Dev nD) (t : Fin cfg0.N) (r : Fin 2048) (d : Fin 256) (hb : t.val * 2048 + r.val < 65536) :
    (iblk m c 0 t : Vec Ideal S2048x256 .f32) (ix2 r d) = argX m c (ix2 ⟨t.val * 2048 + r.val, hb⟩ d) := by
  obtain ⟨e0, e1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 2048 + 1 * r.val = t.val * 2048 + r.val; rw [e0]; omega
  | ⟨1, _⟩ => show win0_0.index t (1 : Fin 2) * 256 + 1 * d.val = d.val; rw [e1]; omega

/-- The second window's block is the transposed feature table, whole. -/
theorem fblk_at (c : Dev nD) (t : Fin cfg0.N) (d : Fin 256) (k : Fin 512) :
    (iblk m c 1 t : Vec Ideal S256x512 .bf16) (ix2 d k) = argF m c (ix2 k d) := by
  obtain ⟨-, -, e0, e1, -⟩ := idx_facts t
  unfold iblk
  rw [View.read_apply]
  show (V m c main_v26 : S256x512.Idx → EReal) _ = _
  rw [V_featT, ← featT_at (argF m c) d k]
  refine congrArg (featT (argF m c)) (funext fun a => Fin.ext ?_)
  match a with
  | ⟨0, _⟩ => show win0_1.index t (0 : Fin 2) * 256 + 1 * d.val = d.val; rw [e0]; omega
  | ⟨1, _⟩ => show win0_1.index t (1 : Fin 2) * 512 + 1 * k.val = k.val; rw [e1]; omega

/-- The third window's block is the first folded table, whole. -/
theorem g1blk_at (c : Dev nD) (t : Fin cfg0.N) (k : Fin 512) (q : Fin 256) :
    (iblk m c 2 t : Vec Ideal S512x256 .bf16) (ix2 k q)
      = argT m c (ix1 (0 : Fin 1)) * (pProj (argF m c) (argP m c) q k * max (pProj (argF m c) (argP m c) q k) 0)
        + argA m c (ix1 (0 : Fin 1)) * (max (pProj (argF m c) (argP m c) q k) 0 - Ideal.ofBits .f32 0x3F800000#32) := by
  obtain ⟨-, -, -, -, e0, e1, -⟩ := idx_facts t
  unfold iblk
  rw [View.read_apply]
  show (V m c main_v20 : S512x256.Idx → EReal) _ = _
  rw [V_table1, ← table1_at (argF m c) (argP m c) (argA m c) (argT m c) k q]
  refine congrArg (table1 (argF m c) (argP m c) (argA m c) (argT m c)) (funext fun a => Fin.ext ?_)
  match a with
  | ⟨0, _⟩ => show win0_2.index t (0 : Fin 2) * 512 + 1 * k.val = k.val; rw [e0]; omega
  | ⟨1, _⟩ => show win0_2.index t (1 : Fin 2) * 256 + 1 * q.val = q.val; rw [e1]; omega

/-- The fourth window's block is the second folded table, whole. -/
theorem g2blk_at (c : Dev nD) (t : Fin cfg0.N) (k : Fin 512) (q : Fin 256) :
    (iblk m c 3 t : Vec Ideal S512x256 .bf16) (ix2 k q)
      = argB m c (ix1 (0 : Fin 1)) * (pProj (argF m c) (argP m c) q k * max (pProj (argF m c) (argP m c) q k) 0) := by
  obtain ⟨-, -, -, -, -, -, e0, e1, -⟩ := idx_facts t
  unfold iblk
  rw [View.read_apply]
  show (V m c main_v21 : S512x256.Idx → EReal) _ = _
  rw [V_table2, ← table2_at (argF m c) (argP m c) (argB m c) k q]
  refine congrArg (table2 (argF m c) (argP m c) (argB m c)) (funext fun a => Fin.ext ?_)
  match a with
  | ⟨0, _⟩ => show win0_3.index t (0 : Fin 2) * 512 + 1 * k.val = k.val; rw [e0]; omega
  | ⟨1, _⟩ => show win0_3.index t (1 : Fin 2) * 256 + 1 * q.val = q.val; rw [e1]; omega

/-- The fifth window's block is the bias row. -/
theorem bblk_at (c : Dev nD) (t : Fin cfg0.N) (q : Fin 256) :
    (iblk m c 4 t : Vec Ideal S1x256 .f32) (ix2 (0 : Fin 1) q)
      = (-(argB m c (ix1 (0 : Fin 1)))) * ∑ k : Fin 512, pProj (argF m c) (argP m c) q k * max (pProj (argF m c) (argP m c) q k) 0 := by
  obtain ⟨-, -, -, -, -, -, -, -, e0, e1, -⟩ := idx_facts t
  unfold iblk
  rw [View.read_apply]
  show (V m c main_v24 : S1x256.Idx → EReal) _ = _
  rw [V_bias, ← biasRow_at (argF m c) (argP m c) (argB m c) q]
  refine congrArg (biasRow (argF m c) (argP m c) (argB m c)) (funext fun a => Fin.ext ?_)
  match a with
  | ⟨0, _⟩ => show win0_4.index t (0 : Fin 2) * 1 + 1 * 0 = 0; rw [e0]
  | ⟨1, _⟩ => show win0_4.index t (1 : Fin 2) * 256 + 1 * q.val = q.val; rw [e1]; omega

/-- Entry (r, q) of the output block at point t is entry (2048 t + r, q) of the array. -/
theorem oblk_emb (t : Fin cfg0.N) (r : Fin 2048) (q : Fin 256) (hb : t.val * 2048 + r.val < 65536) :
    ((cfg0.win 5).blk t).view.emb (ix2 r q) = ix2 (⟨t.val * 2048 + r.val, hb⟩ : Fin 65536) q := by
  obtain ⟨-, -, -, -, -, -, -, -, -, -, e0, e1⟩ := idx_facts t
  funext a
  apply Fin.ext
  match a with
  | ⟨0, _⟩ => show win0_5.index t (0 : Fin 2) * 2048 + 1 * r.val = t.val * 2048 + r.val; rw [e0]; omega
  | ⟨1, _⟩ => show win0_5.index t (1 : Fin 2) * 256 + 1 * q.val = q.val; rw [e1]; omega

/-! ## What a point writes back, and the array after the run -/

/-- Point t writes back block t of the result. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  rw [View.canon_unit_zero hz]
  simp only [View.ld_unit_zero (S := S2048x256) hz, View.ld_unit_zero (S := S256x512) hz,
    View.ld_unit_zero (S := S512x256) hz, View.ld_unit_zero (S := S1x256) hz]
  funext j
  obtain ⟨r, q, rfl⟩ : ∃ (r : Fin 2048) (q : Fin 256), j = ix2 r q := ⟨j 0, j 1, eq_ix2 j⟩
  have hN : cfg0.N = 32 := N_0
  have hb : t.val * 2048 + r.val < 65536 := by have := t.isLt; have := r.isLt; omega
  show k0_pay1 (iblk m c 0 t) (iblk m c 1 t) (iblk m c 2 t) (iblk m c 3 t) (iblk m c 4 t) (ix2 r q)
      = result m c (((cfg0.win 5).blk t).view.emb (ix2 r q))
  rw [oblk_emb t r q hb]
  refine (Cert.Tversky.Body.payload_at _ _ _ _ _ r q).trans ?_
  simp only [xblk_at m c t _ _ hb, fblk_at m c t, g1blk_at m c t, g2blk_at m c t, bblk_at m c t]
  rfl

/-- An array index is in point t's output block iff each coordinate is in the block's range. -/
theorem mem_blk (t : Fin cfg0.N) (i : S65536x256.Idx) :
    i ∈ ((cfg0.win 5).blk t).view.set
      ↔ ∀ a : Fin 2, win0_5.index t a * S2048x256.size a ≤ (i a).val
          ∧ (i a).val < win0_5.index t a * S2048x256.size a + S2048x256.size a := by
  show i ∈ ((View.whole main_v27).slice (win0_5.rect t)).set ↔ _
  rw [View.set_slice_whole, Rect.mem_set_unit]
  exact Iff.rfl

/-- The array after the run is the result. -/
theorem final (c : Dev nD) : (dats m 0 c).arrAt 5 cfg0.N = result m c :=
  (dats m 0 c).arrAt_eq_of_cover 5 (result m c) (fun t _ => flushed_eq m c t) (fun i => by
    have hi0 : (i 0).val < 65536 := (i 0).isLt
    have hi1 : (i 1).val < 256 := (i 1).isLt
    have hN : cfg0.N = 32 := N_0
    have ht : (i 0).val / 2048 < cfg0.N := by rw [hN]; omega
    obtain ⟨-, -, -, -, -, -, -, -, -, -, e0, e1⟩ := idx_facts ⟨(i 0).val / 2048, ht⟩
    have e0' : win0_5.index ⟨(i 0).val / 2048, ht⟩ (0 : Fin 2) = (i 0).val / 2048 := e0
    refine ⟨⟨(i 0).val / 2048, ht⟩, flush0_5 _, ?_⟩
    rw [mem_blk]
    intro a
    match a with
    | ⟨0, _⟩ =>
      show win0_5.index ⟨(i 0).val / 2048, ht⟩ (0 : Fin 2) * 2048 ≤ (i 0).val
        ∧ (i 0).val < win0_5.index ⟨(i 0).val / 2048, ht⟩ (0 : Fin 2) * 2048 + 2048
      rw [e0']; omega
    | ⟨1, _⟩ =>
      show win0_5.index ⟨(i 0).val / 2048, ht⟩ (1 : Fin 2) * 256 ≤ (i 1).val
        ∧ (i 1).val < win0_5.index ⟨(i 0).val / 2048, ht⟩ (1 : Fin 2) * 256 + 256
      rw [e1]; omega)

/-- The kernel's run: the result array at the specification's function, the arguments unchanged. -/
theorem run : θ_run defs (onTc (τ := τ) (main (F := Ideal))) ⟨m, fun _ => 0, ρ⟩ fun r => ∀ c : Dev nD,
      r.2.mem ((c : Thread nD τ).loc main_v27) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.Tversky.Kernel

end
-- ==== Proof.lean ====
/-
  The Tversky similarity layer: the Pallas kernel against its jnp reference, over the extended reals.

  Both programs compute, for every input row b and prototype q, a combination of three sums over the 512 features of
  the positive parts of two projections (the input row's and the prototype's on the feature vectors).  The reference
  forms the three Tversky terms and combines them with theta, alpha and beta at the end; the kernel folds the three
  scalars into two 512 x 256 tables and a bias row ahead of time, so that its body is two matrix products and an
  addition.  Over the real numbers the two are the same function, by distributivity and z * max z 0 = (max z 0)^2;
  on the extended reals distributivity needs finiteness, which is what the precondition gives.

  The pieces:  Spec (the two functions and the law),  Finite (the precondition read back),  RefValue (the reference's
  run is the reference function),  KernelBody, KernelTables, KernelValue (the kernel's run is the kernel function:
  the body at an entry, the host-prepared tables at an entry, the 32 blocks of 2048 rows tiling the output).
  The three frames are the generated ones (the reference's is its run with the result forgotten); the kernel and its
  idealization are the same text, so there is nothing to preserve.
-/
import proofs.«404954_j20916490731764_3_alg».proof.Defs
import proofs.«404954_j20916490731764_3_alg».proof.Proof.Gen.Kernel
import proofs.«404954_j20916490731764_3_alg».proof.Proof.Gen.Kernel.Skeleton
import proofs.«404954_j20916490731764_3_alg».proof.Proof.Gen.Kernel.Launch
import proofs.«404954_j20916490731764_3_alg».proof.Proof.Gen.Kernel.Points
import proofs.«404954_j20916490731764_3_alg».proof.Proof.Gen.Kernel.Frame
import proofs.«404954_j20916490731764_3_alg».proof.Proof.Gen.KernelIdeal
import proofs.«404954_j20916490731764_3_alg».proof.Proof.Gen.KernelIdeal.Skeleton
import proofs.«404954_j20916490731764_3_alg».proof.Proof.Gen.KernelIdeal.Launch
import proofs.«404954_j20916490731764_3_alg».proof.Proof.Gen.KernelIdeal.Points
import proofs.«404954_j20916490731764_3_alg».proof.Proof.Gen.KernelIdeal.Frame
import proofs.«404954_j20916490731764_3_alg».proof.Proof.Gen.ReferenceIdeal
import proofs.«404954_j20916490731764_3_alg».proof.Proof.Gen.Pre_finite_inputs
import proofs.«404954_j20916490731764_3_alg».proof.Proof.Gen.KernelIdeal.Value
import proofs.«404954_j20916490731764_3_alg».proof.Proof.Gen.ReferenceIdeal.Run
import proofs.«404954_j20916490731764_3_alg».proof.Proof.Gen.ReferenceIdeal.Read
import proofs.«404954_j20916490731764_3_alg».proof.Proof.Spec
import proofs.«404954_j20916490731764_3_alg».proof.Proof.Finite
import proofs.«404954_j20916490731764_3_alg».proof.Proof.RefValue
import proofs.«404954_j20916490731764_3_alg».proof.Proof.KernelValue
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments alone: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, which the precondition makes finite, the kernel ends with kerOut of the
    arguments in its result array and the reference with refOut of them: one function on finite arguments. -/
theorem algebraic : Cert.algebraic_KernelIdeal_ReferenceIdeal := by
  intro m ρ m' ρ' hpre hagree
  refine ⟨fun c => Cert.Tversky.Kernel.result m c, Cert.Tversky.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  obtain ⟨fX, fF, fP, fA, fB, fT⟩ := Cert.Tversky.Finite.of_pre _ _ _ _ _ _ (hpre c)
  rw [Cert.ReferenceIdeal.Read.val_main_v32_eq, Cert.Tversky.Ref.result_eq, h0, h1, h2, h3, h4, h5]
  funext i
  exact (Cert.Tversky.kerOut_eq_refOut _ _ _ _ _ _ fX fF fP (fA _) (fB _) (fT _) (i 0) (i 1)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
